-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8x256x129 : Shape := ⟨4, ![128, 8, 256, 129]⟩
abbrev S256x129 : Shape := ⟨2, ![256, 129]⟩
abbrev S129 : Shape := ⟨1, ![129]⟩
abbrev S_ : Shape := ⟨0, ![]⟩

class Facts : Prop where
  bcast_S_S128x8x256x129 : S_.BroadcastsInDim S128x8x256x129 (![] : Fin 0 → Fin S128x8x256x129.rank)
  reducesTo_S128x8x256x129_S_d0_1_2_3 : S128x8x256x129.ReducesTo [0, 1, 2, 3] S_
  h_S_ : 0 < S_.numel
  bcast_S_S256x129 : S_.BroadcastsInDim S256x129 (![] : Fin 0 → Fin S256x129.rank)
  reducesTo_S256x129_S_d0_1 : S256x129.ReducesTo [0, 1] S_
  bcast_S_S129 : S_.BroadcastsInDim S129 (![] : Fin 0 → Fin S129.rank)
  reducesTo_S129_S_d0 : S129.ReducesTo [0] S_

variable [Facts]

def fn {F : FTy → Type} [FloatOps F] (main_arg0 : FVec F S128x8x256x129 .f32) (main_arg1 : IVec S256x129 32) (main_arg2 : FVec F S256x129 .f32) (main_arg3 : FVec F S129 .f32) : IVec S_ 1 :=
  let main_v0 : FVec F S128x8x256x129 .f32 := Host.absf main_arg0
  let main_cst : FVec F S_ .f32 := constant S_ .f32 0x7F800000#32
  let main_v1 : FVec F S128x8x256x129 .f32 := broadcastInDim S128x8x256x129 ![] bcast_S_S128x8x256x129 main_cst
  let main_v2 : IVec S128x8x256x129 1 := cmpf .olt main_v0 main_v1
  let main_c : IVec S_ 1 := constantI S_ 1 1#1
  let main_v3 : IVec S_ 1 := (fun x v => Host.reduce IntOp.andi x v reducesTo_S128x8x256x129_S_d0_1_2_3 h_S_) main_v2 main_c
  let main_v4 : FVec F S256x129 .f32 := Host.absf main_arg2
  let main_cst_0 : FVec F S_ .f32 := constant S_ .f32 0x7F800000#32
  let main_v5 : FVec F S256x129 .f32 := broadcastInDim S256x129 ![] bcast_S_S256x129 main_cst_0
  let main_v6 : IVec S256x129 1 := cmpf .olt main_v4 main_v5
  let main_c_1 : IVec S_ 1 := constantI S_ 1 1#1
  let main_v7 : IVec S_ 1 := (fun x v => Host.reduce IntOp.andi x v reducesTo_S256x129_S_d0_1 h_S_) main_v6 main_c_1
  let main_v8 : IVec S_ 1 := andi main_v3 main_v7
  let main_v9 : FVec F S129 .f32 := Host.absf main_arg3
  let main_cst_2 : FVec F S_ .f32 := constant S_ .f32 0x7F800000#32
  let main_v10 : FVec F S129 .f32 := broadcastInDim S129 ![] bcast_S_S129 main_cst_2
  let main_v11 : IVec S129 1 := cmpf .olt main_v9 main_v10
  let main_c_3 : IVec S_ 1 := constantI S_ 1 1#1
  let main_v12 : IVec S_ 1 := (fun x v => Host.reduce IntOp.andi x v reducesTo_S129_S_d0 h_S_) main_v11 main_c_3
  let main_v13 : IVec S_ 1 := andi main_v8 main_v12
  main_v13
-- ==== Kernel.lean ====
abbrev S128x8x256x129 : Shape := ⟨4, ![128, 8, 256, 129]⟩
abbrev S256x129 : Shape := ⟨2, ![256, 129]⟩
abbrev S129 : Shape := ⟨1, ![129]⟩
abbrev S1024x33024 : Shape := ⟨2, ![1024, 33024]⟩
abbrev S1x33024 : Shape := ⟨2, ![1, 33024]⟩
abbrev S1x129 : Shape := ⟨2, ![1, 129]⟩
abbrev S1024x129 : Shape := ⟨2, ![1024, 129]⟩
abbrev S256x5504 : Shape := ⟨2, ![256, 5504]⟩
abbrev S1x5504 : Shape := ⟨2, ![1, 5504]⟩
abbrev S129x5504 : Shape := ⟨2, ![129, 5504]⟩
abbrev S128x8x129 : Shape := ⟨3, ![128, 8, 129]⟩

abbrev nBuf : Space → Nat
  | .hbm => 10
  | .vmem => 10
  | .smem => 0
  | _ => 0

abbrev bufTy : (tb : Table) → Fin (tcTables nBuf tb) → BufTy
  | .hbm, ⟨0, _⟩ => ⟨S128x8x256x129, .f32⟩
  | .hbm, ⟨1, _⟩ => ⟨S256x129, .i32⟩
  | .hbm, ⟨2, _⟩ => ⟨S256x129, .f32⟩
  | .hbm, ⟨3, _⟩ => ⟨S129, .f32⟩
  | .hbm, ⟨4, _⟩ => ⟨S1024x33024, .f32⟩
  | .hbm, ⟨5, _⟩ => ⟨S1x33024, .f32⟩
  | .hbm, ⟨6, _⟩ => ⟨S1x33024, .i32⟩
  | .hbm, ⟨7, _⟩ => ⟨S1x129, .f32⟩
  | .hbm, ⟨8, _⟩ => ⟨S1024x129, .f32⟩
  | .hbm, ⟨9, _⟩ => ⟨S128x8x129, .f32⟩
  | .local _ .vmem, ⟨0, _⟩ => ⟨S256x5504, .f32⟩
  | .local _ .vmem, ⟨1, _⟩ => ⟨S256x5504, .f32⟩
  | .local _ .vmem, ⟨2, _⟩ => ⟨S1x5504, .f32⟩
  | .local _ .vmem, ⟨3, _⟩ => ⟨S1x5504, .f32⟩
  | .local _ .vmem, ⟨4, _⟩ => ⟨S1x5504, .i32⟩
  | .local _ .vmem, ⟨5, _⟩ => ⟨S1x5504, .i32⟩
  | .local _ .vmem, ⟨6, _⟩ => ⟨S1x129, .f32⟩
  | .local _ .vmem, ⟨7, _⟩ => ⟨S256x129, .f32⟩
  | .local _ .vmem, ⟨8, _⟩ => ⟨S256x129, .f32⟩
  | .local _ .vmem, ⟨9, _⟩ => ⟨S256x129, .f32⟩
  | _, _ => ⟨S128x8x256x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v25 : BitVec 1 := Scalar.cmpi .eq arg1 c5_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5504 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5504 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x129 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x129 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128x8x256x129_S1024x33024 : S128x8x256x129.ShapeCasts S1024x33024
  shapeCasts_S256x129_S1x33024 : S256x129.ShapeCasts S1x33024
  shapeCasts_S129_S1x129 : S129.ShapeCasts S1x129
  inb_S256x129_S256x129_0_0 : ∀ a, (![0, 0] : Fin 2 → Nat) a + S256x129.size a ≤ S256x129.size a
  h_S256x129 : 0 < S256x129.numel
  shapeCasts_S256x129_S256x129 : S256x129.ShapeCasts S256x129
  inb_S256x5504_S256x5504_0_0 : ∀ a, (![0, 0] : Fin 2 → Nat) a + S256x5504.size a ≤ S256x5504.size a
  h_S256x5504 : 0 < S256x5504.numel
  shapeCasts_S256x5504_S256x5504 : S256x5504.ShapeCasts S256x5504
  inb_S1x5504_S1x5504_0_0 : ∀ a, (![0, 0] : Fin 2 → Nat) a + S1x5504.size a ≤ S1x5504.size a
  h_S1x5504 : 0 < S1x5504.numel
  shapeCasts_S1x5504_S1x5504 : S1x5504.ShapeCasts S1x5504
  broadcasts_S1x5504_S256x5504 : S1x5504.Broadcasts S256x5504
  bitsLt_bf16_f32 : FTy.bits .bf16 < FTy.bits .f32
  iota_S129x5504_d0_w32 : S129x5504.Iotas .tc 32 [0]
  broadcasts_S1x5504_S129x5504 : S1x5504.Broadcasts S129x5504
  natLt_1_32 : 1 < 32
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S256x129 : S1x129.Broadcasts S256x129
  shapeCasts_S1024x129_S128x8x129 : S1024x129.ShapeCasts S128x8x129
  dot_S256x5504_S129x5504_S256x129_1_1_0_0_n_n_wf : DotDims.WF S256x5504 S129x5504 S256x129 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5504.size a ≤ S1024x33024.size a
  hwx0_0 : ∀ i : grid0.Coords, EltTy.bits .f32 = 32 ∨ (Rect.block (s := S1024x33024) S256x5504.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5504.size a ≤ S1x33024.size a
  hwx0_1 : ∀ i : grid0.Coords, EltTy.bits .f32 = 32 ∨ (Rect.block (s := S1x33024) S1x5504.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5504.size a ≤ S1x33024.size a
  hwx0_2 : ∀ i : grid0.Coords, EltTy.bits .i32 = 32 ∨ (Rect.block (s := S1x33024) S1x5504.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x129.size a ≤ S1x129.size a
  hwx0_3 : ∀ i : grid0.Coords, EltTy.bits .f32 = 32 ∨ (Rect.block (s := S1x129) S1x129.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x129.size a ≤ S1024x129.size a
  hwx0_4 : ∀ i : grid0.Coords, EltTy.bits .f32 = 32 ∨ (Rect.block (s := S1024x129) S256x129.size (cc0_transform_4 i) (hinb0_4 i)).WholeWords (EltTy.packing .f32)

variable [Facts₀]

def dot_S256x5504_S129x5504_S256x129_1_1_0_0_n_n : DotDims S256x5504 S129x5504 S256x129 where
  lhsContracting := [1]
  rhsContracting := [1]
  lhsNonContracting := [0]
  rhsNonContracting := [0]
  lhsBatch := []
  rhsBatch := []
  wf := dot_S256x5504_S129x5504_S256x129_1_1_0_0_n_n_wf

abbrev win0_0 : Pipeline.Window sig grid0 :=
  Pipeline.Window.ofSpec (Memref.whole main_v0) S256x5504.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x5504.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x129.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x129.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x8x256x129 : Shape := ⟨4, ![128, 8, 256, 129]⟩
abbrev S256x129 : Shape := ⟨2, ![256, 129]⟩
abbrev S129 : Shape := ⟨1, ![129]⟩
abbrev S1x1x256x129 : Shape := ⟨4, ![1, 1, 256, 129]⟩
abbrev S1024x33024 : Shape := ⟨2, ![1024, 33024]⟩
abbrev S33024 : Shape := ⟨1, ![33024]⟩
abbrev S33024x1024 : Shape := ⟨2, ![33024, 1024]⟩
abbrev S_ : Shape := ⟨0, ![]⟩
abbrev S129x1024 : Shape := ⟨2, ![129, 1024]⟩
abbrev S33024x1 : Shape := ⟨2, ![33024, 1]⟩
abbrev S1024x129 : Shape := ⟨2, ![1024, 129]⟩
abbrev S1x129 : Shape := ⟨2, ![1, 129]⟩
abbrev S128x8x129 : Shape := ⟨3, ![128, 8, 129]⟩

abbrev nBuf : Space → Nat
  | .hbm => 23
  | .vmem => 0
  | .smem => 0
  | _ => 0

abbrev bufTy : (tb : Table) → Fin (tcTables nBuf tb) → BufTy
  | .hbm, ⟨0, _⟩ => ⟨S128x8x256x129, .f32⟩
  | .hbm, ⟨1, _⟩ => ⟨S256x129, .i32⟩
  | .hbm, ⟨2, _⟩ => ⟨S256x129, .f32⟩
  | .hbm, ⟨3, _⟩ => ⟨S129, .f32⟩
  | .hbm, ⟨4, _⟩ => ⟨S128x8x256x129, .f32⟩
  | .hbm, ⟨5, _⟩ => ⟨S1x1x256x129, .f32⟩
  | .hbm, ⟨6, _⟩ => ⟨S128x8x256x129, .f32⟩
  | .hbm, ⟨7, _⟩ => ⟨S128x8x256x129, .f32⟩
  | .hbm, ⟨8, _⟩ => ⟨S1024x33024, .f32⟩
  | .hbm, ⟨9, _⟩ => ⟨S33024, .i32⟩
  | .hbm, ⟨10, _⟩ => ⟨S33024x1024, .f32⟩
  | .hbm, ⟨11, _⟩ => ⟨S_, .f32⟩
  | .hbm, ⟨12, _⟩ => ⟨S129x1024, .f32⟩
  | .hbm, ⟨13, _⟩ => ⟨S33024x1, .i32⟩
  | .hbm, ⟨14, _⟩ => ⟨S129x1024, .f32⟩
  | .hbm, ⟨15, _⟩ => ⟨S1024x129, .f32⟩
  | .hbm, ⟨16, _⟩ => ⟨S_, .f32⟩
  | .hbm, ⟨17, _⟩ => ⟨S129, .f32⟩
  | .hbm, ⟨18, _⟩ => ⟨S129, .f32⟩
  | .hbm, ⟨19, _⟩ => ⟨S1x129, .f32⟩
  | .hbm, ⟨20, _⟩ => ⟨S1024x129, .f32⟩
  | .hbm, ⟨21, _⟩ => ⟨S1024x129, .f32⟩
  | .hbm, ⟨22, _⟩ => ⟨S128x8x129, .f32⟩
  | _, _ => ⟨S128x8x256x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S256x129_S1x1x256x129_2_3 : S256x129.BroadcastsInDim S1x1x256x129 (![2, 3] : Fin 2 → Fin S1x1x256x129.rank)
  bcast_S1x1x256x129_S128x8x256x129_0_1_2_3 : S1x1x256x129.BroadcastsInDim S128x8x256x129 (![0, 1, 2, 3] : Fin 4 → Fin S128x8x256x129.rank)
  shapeCasts_S128x8x256x129_S1024x33024 : S128x8x256x129.ShapeCasts S1024x33024
  shapeCasts_S256x129_S33024 : S256x129.ShapeCasts S33024
  transposes_S1024x33024_S33024x1024_1_0 : S1024x33024.Transposes [1, 0] S33024x1024
  bcast_S_S129x1024 : S_.BroadcastsInDim S129x1024 (![] : Fin 0 → Fin S129x1024.rank)
  bcast_S33024_S33024x1_0 : S33024.BroadcastsInDim S33024x1 (![0] : Fin 1 → Fin S33024x1.rank)
  transposes_S129x1024_S1024x129_1_0 : S129x1024.Transposes [1, 0] S1024x129
  bcast_S_S129 : S_.BroadcastsInDim S129 (![] : Fin 0 → Fin S129.rank)
  bcast_S129_S1x129_1 : S129.BroadcastsInDim S1x129 (![1] : Fin 1 → Fin S1x129.rank)
  bcast_S1x129_S1024x129_0_1 : S1x129.BroadcastsInDim S1024x129 (![0, 1] : Fin 2 → Fin S1024x129.rank)
  shapeCasts_S1024x129_S128x8x129 : S1024x129.ShapeCasts S128x8x129
  scatter_S129x1024_S33024x1_S33024x1024_1_0_0_1_wf : ScatterDims.WF S129x1024 S33024x1 S33024x1024 [1] [0] [0] 1

variable [Facts₀]

def scatter_S129x1024_S33024x1_S33024x1024_1_0_0_1 : ScatterDims S129x1024 S33024x1 S33024x1024 where
  updateWindowDims := [1]
  insertedWindowDims := [0]
  scatterDimsToOperandDims := [0]
  indexVectorDim := 1
  wf := scatter_S129x1024_S33024x1_S33024x1024_1_0_0_1_wf

class Facts : Prop extends Facts₀ where

variable [Facts]
-- ==== Proof.KPieces.lean ====
/-
  What each control case of the kernel body leaves behind, as values of what it was given.

  At the first pixel stretch of a row tile the body zeroes the scratch and then adds the stretch's product into it;
  at a later stretch it adds the product into what the scratch held; at the last stretch it also stores the
  scratch, divided by `count + eps`, into the output block. Each case's stores cover their buffer whole, so what
  is read back is the last store's value, and a load of the scratch after a store reads that store's value.
-/
import proofs.«427259_j25864293056838_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First stretch: the scratch ends at the update of the zero block. -/
theorem scratch_first (c : Dev nD) (i : grid0.Coords) (arg2 : Memref sig .tc .vmem S256x5504 .f32) (harg2 : arg2.IsWhole) (arg3 : Memref sig .tc .vmem S1x5504 .f32) (harg3 : arg3.IsWhole) (arg4 : Memref sig .tc .vmem S1x5504 .i32) (harg4 : arg4.IsWhole) (arg5 : Memref sig .tc .vmem S1x129 .f32) (harg5 : arg5.IsWhole) (arg6 : Memref sig .tc .vmem S256x129 .f32) (harg6 : arg6.IsWhole) (arg7 : Memref sig .tc .vmem S256x129 .f32) (harg7 : arg7.IsWhole) (hc0 : cond0_0 i) (hc1 : ¬cond0_1 i)
    (x0 : Vec F S256x5504 .f32) (x1 : Vec F S1x5504 .f32) (x2 : Vec F S1x5504 .i32) (x3 : Vec F S1x129 .f32) :
    sout0_A_0 c i arg2 harg2 arg3 harg3 arg4 harg4 arg5 harg5 arg6 harg6 arg7 harg7 hc0 hc1 x0 x1 x2 x3 = k0_pay2 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x129) hz, View.readCov_unit_zero (S := S256x129) _ hz]
  simp only [View.readAt_eq_ld, harg2.read_unread, harg3.read_unread, harg4.read_unread, harg5.read_unread, harg7.read_unread,
    View.ld_unit_zero (S := S256x5504) hz, View.ld_unit_zero (S := S1x5504) hz, View.ld_unit_zero (S := S1x129) hz,
    View.ld_unit_zero (S := S256x129) hz]

/-- A middle stretch: the scratch ends at the update of what it held. -/
theorem scratch_middle (c : Dev nD) (i : grid0.Coords) (arg2 : Memref sig .tc .vmem S256x5504 .f32) (harg2 : arg2.IsWhole) (arg3 : Memref sig .tc .vmem S1x5504 .f32) (harg3 : arg3.IsWhole) (arg4 : Memref sig .tc .vmem S1x5504 .i32) (harg4 : arg4.IsWhole) (arg5 : Memref sig .tc .vmem S1x129 .f32) (harg5 : arg5.IsWhole) (arg6 : Memref sig .tc .vmem S256x129 .f32) (harg6 : arg6.IsWhole) (arg7 : Memref sig .tc .vmem S256x129 .f32) (harg7 : arg7.IsWhole) (hc0 : ¬cond0_0 i) (hc1 : ¬cond0_1 i)
    (x0 : Vec F S256x5504 .f32) (x1 : Vec F S1x5504 .f32) (x2 : Vec F S1x5504 .i32) (x3 : Vec F S1x129 .f32) (xs0 : Vec F S256x129 .f32) :
    sout0_B_0 c i arg2 harg2 arg3 harg3 arg4 harg4 arg5 harg5 arg6 harg6 arg7 harg7 hc0 hc1 x0 x1 x2 x3 xs0 = k0_pay2 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S256x5504) hz, View.ld_unit_zero (S := S1x5504) hz, View.ld_unit_zero (S := S1x129) hz,
    View.ld_unit_zero (S := S256x129) hz]

/-- The last stretch: the scratch likewise, -/
theorem scratch_last (c : Dev nD) (i : grid0.Coords) (arg2 : Memref sig .tc .vmem S256x5504 .f32) (harg2 : arg2.IsWhole) (arg3 : Memref sig .tc .vmem S1x5504 .f32) (harg3 : arg3.IsWhole) (arg4 : Memref sig .tc .vmem S1x5504 .i32) (harg4 : arg4.IsWhole) (arg5 : Memref sig .tc .vmem S1x129 .f32) (harg5 : arg5.IsWhole) (arg6 : Memref sig .tc .vmem S256x129 .f32) (harg6 : arg6.IsWhole) (arg7 : Memref sig .tc .vmem S256x129 .f32) (harg7 : arg7.IsWhole) (hc0 : ¬cond0_0 i) (hc1 : cond0_1 i)
    (x0 : Vec F S256x5504 .f32) (x1 : Vec F S1x5504 .f32) (x2 : Vec F S1x5504 .i32) (x3 : Vec F S1x129 .f32) (xs0 : Vec F S256x129 .f32) :
    sout0_C_0 c i arg2 harg2 arg3 harg3 arg4 harg4 arg5 harg5 arg6 harg6 arg7 harg7 hc0 hc1 x0 x1 x2 x3 xs0 = k0_pay2 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S256x5504) hz, View.ld_unit_zero (S := S1x5504) hz, View.ld_unit_zero (S := S1x129) hz,
    View.ld_unit_zero (S := S256x129) hz]

/-- and the output block at the quotient of the updated scratch. -/
theorem block_last (c : Dev nD) (i : grid0.Coords) (arg2 : Memref sig .tc .vmem S256x5504 .f32) (harg2 : arg2.IsWhole) (arg3 : Memref sig .tc .vmem S1x5504 .f32) (harg3 : arg3.IsWhole) (arg4 : Memref sig .tc .vmem S1x5504 .i32) (harg4 : arg4.IsWhole) (arg5 : Memref sig .tc .vmem S1x129 .f32) (harg5 : arg5.IsWhole) (arg6 : Memref sig .tc .vmem S256x129 .f32) (harg6 : arg6.IsWhole) (arg7 : Memref sig .tc .vmem S256x129 .f32) (harg7 : arg7.IsWhole) (hc0 : ¬cond0_0 i) (hc1 : cond0_1 i)
    (x0 : Vec F S256x5504 .f32) (x1 : Vec F S1x5504 .f32) (x2 : Vec F S1x5504 .i32) (x3 : Vec F S1x129 .f32) (xs0 : Vec F S256x129 .f32) :
    out0_C_4 c i arg2 harg2 arg3 harg3 arg4 harg4 arg5 harg5 arg6 harg6 arg7 harg7 hc0 hc1 x0 x1 x2 x3 xs0 = k0_pay3 (k0_pay2 x0 x1 x2 xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readCov_unit_zero (S := S256x129) _ hz, View.readAt_eq_ld, harg2.read_unread, harg3.read_unread, harg4.read_unread,
    harg5.read_unread, harg7.read_unread,
    View.ld_unit_zero (S := S256x5504) hz, View.ld_unit_zero (S := S1x5504) hz, View.ld_unit_zero (S := S1x129) hz,
    View.ld_unit_zero (S := S256x129) hz]

end Cert.KernelIdeal.Pieces

end
-- ==== Proof.KPay.lean ====
/-
  The kernel body's three stored values, read at one element over the extended reals.

  The reset stores zero. The update stores, at row `p` and shell `r`, what the scratch held there plus the matrix
  product of the weighted power `x * x * w` of the row's 5504 pixels with the one-hot column of shell `r`: a pixel's
  factor is `1` when its index word is the word `r` and `0` otherwise, so the product's sum keeps exactly the
  pixels of shell `r`. The last store divides by `count r + eps`.
-/
import proofs.«427259_j25864293056838_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The product's dimension numbers: both operands contract their pixel axis. -/
abbrev D := dot_S256x5504_S129x5504_S256x129_1_1_0_0_n_n

theorem lhs_0 (j : S256x129.Idx) (k : D.contr.Idx) : (D.lhsIdx j k 0 : ℕ) = j 0 := by
  simp [DotDims.lhsIdx, D, dot_S256x5504_S129x5504_S256x129_1_1_0_0_n_n]; rfl
theorem lhs_1 (j : S256x129.Idx) (k : D.contr.Idx) : (D.lhsIdx j k 1 : ℕ) = k ⟨0, by decide⟩ := by
  simp [DotDims.lhsIdx, D, dot_S256x5504_S129x5504_S256x129_1_1_0_0_n_n]; rfl
theorem rhs_0 (j : S256x129.Idx) (k : D.contr.Idx) : (D.rhsIdx j k 0 : ℕ) = j 1 := by
  simp [DotDims.rhsIdx, D, dot_S256x5504_S129x5504_S256x129_1_1_0_0_n_n]; rfl
theorem rhs_1 (j : S256x129.Idx) (k : D.contr.Idx) : (D.rhsIdx j k 1 : ℕ) = k ⟨0, by decide⟩ := by
  simp [DotDims.rhsIdx, D, dot_S256x5504_S129x5504_S256x129_1_1_0_0_n_n]; rfl

/-- The contraction's positions are the 5504 pixels of a stretch. -/
def pixels : D.contr.Idx ≃ Fin 5504 := contrEquiv1 D 5504 (by decide) (by decide)

theorem pixels_symm_val (q : Fin 5504) : ((pixels.symm q) ⟨0, by decide⟩ : ℕ) = q.val :=
  contrEquiv1_symm_val D 5504 (by decide) (by decide) q

theorem lhs_at (p : Fin 256) (r : Fin 129) (q : Fin 5504) :
    D.lhsIdx (ix2 p r) (pixels.symm q) = (ix2 p q : S256x5504.Idx) :=
  funext fun a => Fin.ext <| match a with
    | ⟨0, _⟩ => lhs_0 _ _
    | ⟨1, _⟩ => (lhs_1 _ _).trans (pixels_symm_val q)

theorem rhs_at (p : Fin 256) (r : Fin 129) (q : Fin 5504) :
    D.rhsIdx (ix2 p r) (pixels.symm q) = (ix2 r q : S129x5504.Idx) :=
  funext fun a => Fin.ext <| match a with
    | ⟨0, _⟩ => rhs_0 _ _
    | ⟨1, _⟩ => (rhs_1 _ _).trans (pixels_symm_val q)

/-- The one-hot factor: the comparison's bit, widened and converted, is `1` on equal words and `0` otherwise. -/
theorem onehot (a b : BitVec 32) :
    (FloatOps.sitofp (F := Ideal) .f32 ((IntOp.cmpi .eq a b).setWidth 32) : EReal) = if a = b then 1 else 0 := by
  have h1 : ((BitVec.ofBool true).setWidth 32 : BitVec 32).toInt = 1 := by decide
  have h0 : ((BitVec.ofBool false).setWidth 32 : BitVec 32).toInt = 0 := by decide
  by_cases h : a = b
  · subst h
    rw [if_pos rfl]
    show (((((BitVec.ofBool (a == a)).setWidth 32).toInt : ℝ)) : EReal) = 1
    rw [beq_self_eq_true, h1]
    simp
  · rw [if_neg h]
    show (((((BitVec.ofBool (a == b)).setWidth 32).toInt : ℝ)) : EReal) = 0
    rw [beq_eq_false_iff_ne.mpr h, h0]
    simp

/-- The reset's value. -/
theorem pay1_apply (y : S256x129.Idx) : k0_pay1 (F := Ideal) y = 0 := by
  unfold k0_pay1
  rw [shapeCast_self]
  exact Ideal.ofBits_zero_f32

/-- The update's value at row `p`, shell `r`. -/
theorem pay2_apply (x0 : Vec Ideal S256x5504 .f32) (x1 : Vec Ideal S1x5504 .f32) (x2 : Vec Ideal S1x5504 .i32)
    (acc : Vec Ideal S256x129 .f32) (p : Fin 256) (r : Fin 129) :
    k0_pay2 (F := Ideal) x0 x1 x2 acc (ix2 p r)
      = acc (ix2 p r) + ∑ q : Fin 5504,
          if x2 (ix2 (0 : Fin 1) q) = BitVec.ofNat 32 r.val then x0 (ix2 p q) * x0 (ix2 p q) * x1 (ix2 (0 : Fin 1) q) else 0 := by
  unfold k0_pay2
  rw [shapeCast_self]
  show acc (ix2 p r) + _ = acc (ix2 p r) + _
  congr 1
  refine (Ideal.matmul_constant_zero_apply D none _ _ (ix2 p r)).trans ?_
  rw [← Equiv.sum_comp pixels.symm]
  refine Finset.sum_congr rfl fun q _ => ?_
  rw [lhs_at, rhs_at, shapeCast_self, shapeCast_self, shapeCast_self]
  have hw : broadcastTo S256x5504 x1 broadcasts_S1x5504_S256x5504 (ix2 p q) = x1 (ix2 (0 : Fin 1) q) :=
    broadcastTo_1b_ab_apply x1 _ p q
  have hi : broadcastTo S129x5504 x2 broadcasts_S1x5504_S129x5504 (ix2 r q) = x2 (ix2 (0 : Fin 1) q) :=
    broadcastTo_1b_ab_apply x2 _ r q
  have hio : iota .tc S129x5504 32 [0] iota_S129x5504_d0_w32 (ix2 r q) = BitVec.ofNat 32 r.val := by
    show BitVec.ofNat 32 (0 * 129 + r.val) = _
    rw [Nat.zero_mul, Nat.zero_add]
  show (x0 (ix2 p q) * x0 (ix2 p q) * broadcastTo S256x5504 x1 broadcasts_S1x5504_S256x5504 (ix2 p q))
      * FloatOps.sitofp (F := Ideal) .f32 ((IntOp.cmpi .eq (iota .tc S129x5504 32 [0] iota_S129x5504_d0_w32 (ix2 r q))
          (broadcastTo S129x5504 x2 broadcasts_S1x5504_S129x5504 (ix2 r q))).setWidth 32) = _
  rw [hw, hi, hio, onehot]
  by_cases h : x2 (ix2 (0 : Fin 1) q) = BitVec.ofNat 32 r.val
  · rw [if_pos h, if_pos h.symm, mul_one]
  · rw [if_neg h, if_neg (fun e => h e.symm), mul_zero]

/-- The quotient's value at row `p`, shell `r`. -/
theorem pay3_apply (v : Vec Ideal S256x129 .f32) (x3 : Vec Ideal S1x129 .f32) (p : Fin 256) (r : Fin 129) :
    k0_pay3 (F := Ideal) v x3 (ix2 p r)
      = Ideal.div (v (ix2 p r)) (x3 (ix2 (0 : Fin 1) r) + Ideal.ofBits .f32 0x3727C5AC#32) := by
  unfold k0_pay3
  rw [shapeCast_self]
  show Ideal.div (v (ix2 p r))
      (broadcastTo S256x129 (addf x3 (broadcast S1x129 (Scalar.ofBits (F := Ideal) .f32 0x3727C5AC#32))) broadcasts_S1x129_S256x129 (ix2 p r)) = _
  rw [broadcastTo_1b_ab_apply _ _ p r]
  rfl

end Cert.KernelIdeal.Pay
end
-- ==== Proof.ShellSum.lean ====
/-
  The radial shell spectrum as one function of the four argument arrays.

  Write `n < 1024` for a row of the flattened volume (image `n / 8`, channel `n % 8`) and `k < 33024` for a flat
  pixel (row `k / 129`, column `k % 129` of the half-plane). The weighted power of row `n` at pixel `k` is
  `x n k * x n k * w k`; the shell sum of row `n` at shell `r` adds it over the pixels whose shell index is the
  word `r`, and the spectrum divides that sum by `count r + eps`. A pixel whose index word is no shell number
  contributes to no shell.

  The sum is written over the naturals below 33024 (an addend past the end is zero), so that cutting it into
  consecutive stretches of 5504 pixels is arithmetic on ranges.
-/
import Idealize.ShloMosaic.PureOps.Ideal
import Idealize.ShloMosaic.Lib.ValueIdx

noncomputable section

open scoped BigOperators

namespace Cert.ShellSum

open Idealize.ShloMosaic Idealize.ShloMosaic.ValueIdx

/-- The volume, the half-plane, the shells, and the rows-by-shells result. -/
abbrev SVol : Shape := ⟨4, ![128, 8, 256, 129]⟩
abbrev SPlane : Shape := ⟨2, ![256, 129]⟩
abbrev SShell : Shape := ⟨1, ![129]⟩
abbrev SRows : Shape := ⟨2, ![1024, 129]⟩

/-- Flat pixel `k` in the half-plane. -/
def pix (k : ℕ) (hk : k < 33024) : SPlane.Idx :=
  ix2 (⟨k / 129, by omega⟩ : Fin 256) (⟨k % 129, by omega⟩ : Fin 129)

/-- Flat pixel `k` of flat row `n` in the volume. -/
def vox (n : ℕ) (hn : n < 1024) (k : ℕ) (hk : k < 33024) : SVol.Idx :=
  ix4 (⟨n / 8, by omega⟩ : Fin 128) (⟨n % 8, by omega⟩ : Fin 8) (⟨k / 129, by omega⟩ : Fin 256) (⟨k % 129, by omega⟩ : Fin 129)

/-- What pixel `k` adds to shell `r` of row `n`: its weighted power when its index word is `r`, else nothing. -/
def addend (X : FVec Ideal SVol .f32) (I : IVec SPlane 32) (W : FVec Ideal SPlane .f32) (n : ℕ) (hn : n < 1024) (r : ℕ)
    (k : ℕ) : EReal :=
  if hk : k < 33024 then
    if I (pix k hk) = BitVec.ofNat 32 r then X (vox n hn k hk) * X (vox n hn k hk) * W (pix k hk) else 0
  else 0

theorem addend_of_lt (X : FVec Ideal SVol .f32) (I : IVec SPlane 32) (W : FVec Ideal SPlane .f32) (n : ℕ) (hn : n < 1024) (r : ℕ)
    (k : ℕ) (hk : k < 33024) :
    addend X I W n hn r k
      = if I (pix k hk) = BitVec.ofNat 32 r then X (vox n hn k hk) * X (vox n hn k hk) * W (pix k hk) else 0 :=
  dif_pos hk

/-- The shell sum over the first `K` flat pixels. -/
def partialSum (X : FVec Ideal SVol .f32) (I : IVec SPlane 32) (W : FVec Ideal SPlane .f32) (n : ℕ) (hn : n < 1024) (r : ℕ)
    (K : ℕ) : EReal :=
  ∑ k ∈ Finset.range K, addend X I W n hn r k

/-- The shell sum: over every flat pixel. -/
def shellSum (X : FVec Ideal SVol .f32) (I : IVec SPlane 32) (W : FVec Ideal SPlane .f32) (n : ℕ) (hn : n < 1024) (r : ℕ) : EReal :=
  partialSum X I W n hn r 33024

/-- The spectrum: each row's shell sums over `count + eps`. -/
def spectrum (X : FVec Ideal SVol .f32) (I : IVec SPlane 32) (W : FVec Ideal SPlane .f32) (C : FVec Ideal SShell .f32) :
    FVec Ideal SRows .f32 :=
  fun i => Ideal.div (shellSum X I W (i 0).val (i 0).isLt (i 1).val) (C (ix1 (i 1)) + Ideal.ofBits .f32 0x3727C5AC#32)

theorem partialSum_zero (X : FVec Ideal SVol .f32) (I : IVec SPlane 32) (W : FVec Ideal SPlane .f32) (n : ℕ) (hn : n < 1024) (r : ℕ) :
    partialSum X I W n hn r 0 = 0 := Finset.sum_range_zero _

/-- One more stretch of `B` pixels: the sum over the first `K + B` is the sum over the first `K` plus the stretch's own,
    the stretch indexed by `Fin B`. Only associativity of `+`: no finiteness is used. -/
theorem partialSum_add (X : FVec Ideal SVol .f32) (I : IVec SPlane 32) (W : FVec Ideal SPlane .f32) (n : ℕ) (hn : n < 1024) (r : ℕ)
    (K B : ℕ) :
    partialSum X I W n hn r (K + B) = partialSum X I W n hn r K + ∑ b : Fin B, addend X I W n hn r (K + b.val) := by
  unfold partialSum
  rw [Finset.sum_range_add, Fin.sum_univ_eq_sum_range (fun b => addend X I W n hn r (K + b)) B]

/-- A 32-bit word read signed is the shell number `r < 129` exactly when it is the word `r`. -/
theorem toInt_ofNat_shell : ∀ q : Fin 129, (BitVec.ofNat 32 q.val).toInt = (q.val : ℤ) := by decide +kernel

theorem toInt_eq_iff (w : BitVec 32) (r : ℕ) (hr : r < 129) : w.toInt = (r : ℤ) ↔ w = BitVec.ofNat 32 r := by
  have key := toInt_ofNat_shell ⟨r, hr⟩
  constructor
  · intro h
    exact BitVec.eq_of_toInt_eq (h.trans key.symm)
  · rintro rfl
    exact key

end Cert.ShellSum

end
-- ==== Proof.KBlocks.lean ====
/-
  The input blocks of a grid point, read at one element in terms of the argument arrays.

  Point `t` of the 4-by-6 grid handles row tile `t / 6` (256 rows) and pixel stretch `t % 6` (5504 pixels). The
  kernel's operands are the arguments flattened: element `(n, k)` of the flattened volume is the volume's element
  at image `n / 8`, channel `n % 8`, pixel `(k / 129, k % 129)`; the flattened weights and shell indices at `k` are
  the half-plane's at that pixel; the counts keep their one axis. So a block's element is the argument's element at
  row `t / 6 * 256 + p` and flat pixel `t % 6 * 5504 + q`.
-/
import proofs.«427259_j25864293056838_2_alg».proof.Proof.Gen.KernelIdeal.Frame
import proofs.«427259_j25864293056838_2_alg».proof.Proof.ShellSum
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx Cert.ShellSum

variable (m : (ℓ : Loc nD τ sig) → Buf (Elt Ideal) ℓ)

/-- The four argument arrays on core `c`. -/
abbrev argX (c : Dev nD) : FVec Ideal SVol .f32 := m ((c : Thread nD τ).loc main_arg0)
abbrev argI (c : Dev nD) : IVec SPlane 32 := m ((c : Thread nD τ).loc main_arg1)
abbrev argW (c : Dev nD) : FVec Ideal SPlane .f32 := m ((c : Thread nD τ).loc main_arg2)
abbrev argC (c : Dev nD) : FVec Ideal SShell .f32 := m ((c : Thread nD τ).loc main_arg3)

/-- The blocks of point `t`, at their literal types. -/
abbrev xblk (c : Dev nD) (t : Fin cfg0.N) : Vec Ideal S256x5504 .f32 := iblk m c 0 t
abbrev wblk (c : Dev nD) (t : Fin cfg0.N) : Vec Ideal S1x5504 .f32 := iblk m c 1 t
abbrev iblk2 (c : Dev nD) (t : Fin cfg0.N) : Vec Ideal S1x5504 .i32 := iblk m c 2 t
abbrev cblk (c : Dev nD) (t : Fin cfg0.N) : Vec Ideal S1x129 .f32 := iblk m c 3 t

theorem row_lt (t : Fin cfg0.N) (p : Fin 256) : t.val / 6 * 256 + p.val < 1024 := by
  have hN : cfg0.N = 24 := N_0
  have := t.isLt; have := p.isLt; omega

theorem col_lt (t : Fin cfg0.N) (q : Fin 5504) : t.val % 6 * 5504 + q.val < 33024 := by
  have := q.isLt; omega

/-- Which block of its array each window holds at point `t`. -/
theorem index0 : ∀ t : Fin cfg0.N, win0_0.index t (0 : Fin 2) = t.val / 6 ∧ win0_0.index t (1 : Fin 2) = t.val % 6 :=
  (by decide +kernel : ∀ t : Fin grid0.N, win0_0.index t (0 : Fin 2) = t.val / 6 ∧ win0_0.index t (1 : Fin 2) = t.val % 6)
theorem index1 : ∀ t : Fin cfg0.N, win0_1.index t (0 : Fin 2) = 0 ∧ win0_1.index t (1 : Fin 2) = t.val % 6 :=
  (by decide +kernel : ∀ t : Fin grid0.N, win0_1.index t (0 : Fin 2) = 0 ∧ win0_1.index t (1 : Fin 2) = t.val % 6)
theorem index2 : ∀ t : Fin cfg0.N, win0_2.index t (0 : Fin 2) = 0 ∧ win0_2.index t (1 : Fin 2) = t.val % 6 :=
  (by decide +kernel : ∀ t : Fin grid0.N, win0_2.index t (0 : Fin 2) = 0 ∧ win0_2.index t (1 : Fin 2) = t.val % 6)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = t.val / 6 ∧ win0_4.index t (1 : Fin 2) = 0 :=
  (by decide +kernel : ∀ t : Fin grid0.N, win0_4.index t (0 : Fin 2) = t.val / 6 ∧ win0_4.index t (1 : Fin 2) = 0)

/-- The flattened operands as the region finds them. -/
theorem flatX (c : Dev nD) : (V m c main_v0 : S1024x33024.Idx → EReal)
    = shapeCast S1024x33024 (argX m c) shapeCasts_S128x8x256x129_S1024x33024 := by
  show StableHlo.after hostOps0 (fun b => m (c, b)) (Proc.devRef .tc main_v0) = _
  after_results
  rfl
theorem flatW (c : Dev nD) : (V m c main_v1 : S1x33024.Idx → EReal)
    = shapeCast S1x33024 (argW m c) shapeCasts_S256x129_S1x33024 := by
  show StableHlo.after hostOps0 (fun b => m (c, b)) (Proc.devRef .tc main_v1) = _
  after_results
  rfl
theorem flatI (c : Dev nD) : (V m c main_v2 : S1x33024.Idx → BitVec 32)
    = shapeCast S1x33024 (argI m c) shapeCasts_S256x129_S1x33024 := by
  show StableHlo.after hostOps0 (fun b => m (c, b)) (Proc.devRef .tc main_v2) = _
  after_results
  rfl
theorem flatC (c : Dev nD) : (V m c main_v3 : S1x129.Idx → EReal)
    = shapeCast S1x129 (argC m c) shapeCasts_S129_S1x129 := by
  show StableHlo.after hostOps0 (fun b => m (c, b)) (Proc.devRef .tc main_v3) = _
  after_results
  rfl

/-- The flattenings read at an element. -/
theorem flatX_apply (X : FVec Ideal SVol .f32) (n : ℕ) (hn : n < 1024) (k : ℕ) (hk : k < 33024) :
    shapeCast S1024x33024 X shapeCasts_S128x8x256x129_S1024x33024 (ix2 (⟨n, hn⟩ : Fin 1024) (⟨k, hk⟩ : Fin 33024)) = X (vox n hn k hk) := by
  refine shapeCast_apply X _ _ (vox n hn k hk) ?_
  rewrite [Shape.rowMajor_val_four, Shape.rowMajor_val_two]
  show ((n / 8 * 8 + n % 8) * 256 + k / 129) * 129 + k % 129 = n * 33024 + k
  omega

theorem flatP_apply {α : Type} (Y : SPlane.Idx → α) (k : ℕ) (hk : k < 33024) :
    shapeCast S1x33024 Y shapeCasts_S256x129_S1x33024 (ix2 (0 : Fin 1) (⟨k, hk⟩ : Fin 33024)) = Y (pix k hk) := by
  refine shapeCast_apply Y _ _ (pix k hk) ?_
  rewrite [Shape.rowMajor_val_two, Shape.rowMajor_val_two]
  show k / 129 * 129 + k % 129 = 0 * 33024 + k
  omega

theorem flatC_apply (C : FVec Ideal SShell .f32) (r : Fin 129) :
    shapeCast S1x129 C shapeCasts_S129_S1x129 (ix2 (0 : Fin 1) r) = C (ix1 r) := by
  refine shapeCast_apply C _ _ (ix1 r) ?_
  rewrite [Shape.rowMajor_val_one, Shape.rowMajor_val_two]
  show r.val = 0 * 129 + r.val
  omega

/-- The blocks at an element. -/
theorem xblk_apply (c : Dev nD) (t : Fin cfg0.N) (p : Fin 256) (q : Fin 5504) :
    xblk m c t (ix2 p q) = argX m c (vox (t.val / 6 * 256 + p.val) (row_lt t p) (t.val % 6 * 5504 + q.val) (col_lt t q)) := by
  unfold xblk iblk
  rw [View.read_apply]
  show V m c main_v0 _ = _
  rw [flatX]
  refine (congrArg (shapeCast S1024x33024 (argX m c) shapeCasts_S128x8x256x129_S1024x33024) ?_).trans
    (flatX_apply (argX m c) _ (row_lt t p) _ (col_lt t q))
  funext a
  apply Fin.ext
  match a with
  | ⟨0, _⟩ => show win0_0.index t 0 * 256 + 1 * p.val = t.val / 6 * 256 + p.val; rw [(index0 t).1]; omega
  | ⟨1, _⟩ => show win0_0.index t 1 * 5504 + 1 * q.val = t.val % 6 * 5504 + q.val; rw [(index0 t).2]; omega

theorem wblk_apply (c : Dev nD) (t : Fin cfg0.N) (q : Fin 5504) :
    wblk m c t (ix2 (0 : Fin 1) q) = argW m c (pix (t.val % 6 * 5504 + q.val) (col_lt t q)) := by
  unfold wblk iblk
  rw [View.read_apply]
  show V m c main_v1 _ = _
  rw [flatW]
  refine (congrArg (shapeCast S1x33024 (argW m c) shapeCasts_S256x129_S1x33024) ?_).trans
    (flatP_apply (argW m c) _ (col_lt t q))
  funext a
  apply Fin.ext
  match a with
  | ⟨0, _⟩ => show win0_1.index t 0 * 1 + 1 * 0 = 0; rw [(index1 t).1]
  | ⟨1, _⟩ => show win0_1.index t 1 * 5504 + 1 * q.val = t.val % 6 * 5504 + q.val; rw [(index1 t).2]; omega

theorem iblk2_apply (c : Dev nD) (t : Fin cfg0.N) (q : Fin 5504) :
    iblk2 m c t (ix2 (0 : Fin 1) q) = argI m c (pix (t.val % 6 * 5504 + q.val) (col_lt t q)) := by
  unfold iblk2 iblk
  rw [View.read_apply]
  show V m c main_v2 _ = _
  rw [flatI]
  refine (congrArg (shapeCast S1x33024 (argI m c) shapeCasts_S256x129_S1x33024) ?_).trans
    (flatP_apply (argI m c) _ (col_lt t q))
  funext a
  apply Fin.ext
  match a with
  | ⟨0, _⟩ => show win0_2.index t 0 * 1 + 1 * 0 = 0; rw [(index2 t).1]
  | ⟨1, _⟩ => show win0_2.index t 1 * 5504 + 1 * q.val = t.val % 6 * 5504 + q.val; rw [(index2 t).2]; omega

theorem cblk_apply (c : Dev nD) (t : Fin cfg0.N) (r : Fin 129) :
    cblk m c t (ix2 (0 : Fin 1) r) = argC m c (ix1 r) := by
  unfold cblk iblk
  rw [View.read_apply]
  show V m c main_v3 _ = _
  rw [flatC]
  refine (congrArg (shapeCast S1x129 (argC m c) shapeCasts_S129_S1x129) ?_).trans (flatC_apply (argC m c) r)
  funext a
  apply Fin.ext
  match a with
  | ⟨0, _⟩ => show win0_3.index t 0 * 1 + 1 * 0 = 0; rw [(index3 t).1]
  | ⟨1, _⟩ => show win0_3.index t 1 * 129 + 1 * r.val = r.val; rw [(index3 t).2]; omega

end Cert.KernelIdeal.Blocks

end
-- ==== Proof.KAccum.lean ====
/-
  The accumulation over a row tile's six pixel stretches.

  After the point of row tile `i` and stretch `a`, the scratch holds, at row `p` and shell `r`, the shell sum of
  row `i * 256 + p` over the first `(a + 1) * 5504` flat pixels: the first stretch starts from zero, each later
  stretch adds its own 5504 addends to what the stretch before left. At the last stretch that is the whole
  shell sum, and the block written back is its quotient by `count r + eps`: the spectrum at that row.
  Only `0 + a = a` and the associativity of `+` are used.
-/
import proofs.«427259_j25864293056838_2_alg».proof.Proof.KPieces
import proofs.«427259_j25864293056838_2_alg».proof.Proof.KPay
import proofs.«427259_j25864293056838_2_alg».proof.Proof.KBlocks

set_option maxRecDepth 16384

noncomputable section

open scoped BigOperators
open Idealize.ShloMosaic Idealize.ShloMosaic.TcCoe Idealize.SL.Sem

namespace Cert.KernelIdeal.Accum

open Cert.KernelIdeal Cert.KernelIdeal.Gen Idealize.ShloMosaic.ValueIdx Cert.ShellSum
open Cert.KernelIdeal.Blocks Cert.KernelIdeal.Pay Cert.KernelIdeal.Pieces

variable (m : (ℓ : Loc nD τ sig) → Buf (Elt Ideal) ℓ)

theorem partialSum_congr (X : FVec Ideal SVol .f32) (I : IVec SPlane 32) (W : FVec Ideal SPlane .f32) {n n' : ℕ} (e : n = n')
    (hn : n < 1024) (hn' : n' < 1024) (r : ℕ) {K K' : ℕ} (eK : K = K') :
    partialSum X I W n hn r K = partialSum X I W n' hn' r K' := by
  subst e; subst eK; rfl

theorem addend_congr (X : FVec Ideal SVol .f32) (I : IVec SPlane 32) (W : FVec Ideal SPlane .f32) {n n' : ℕ} (e : n = n')
    (hn : n < 1024) (hn' : n' < 1024) (r : ℕ) {k k' : ℕ} (ek : k = k') :
    addend X I W n hn r k = addend X I W n' hn' r k' := by
  subst e; subst ek; rfl

/-- One stretch's kept products are the stretch's addends of the shell sum. -/
theorem stretch_sum (c : Dev nD) (t : Fin cfg0.N) (p : Fin 256) (r : Fin 129) :
    (∑ q : Fin 5504, if iblk2 m c t (ix2 (0 : Fin 1) q) = BitVec.ofNat 32 r.val
        then xblk m c t (ix2 p q) * xblk m c t (ix2 p q) * wblk m c t (ix2 (0 : Fin 1) q) else 0)
      = ∑ q : Fin 5504, addend (argX m c) (argI m c) (argW m c) (t.val / 6 * 256 + p.val) (row_lt t p) r.val
          (t.val % 6 * 5504 + q.val) := by
  refine Finset.sum_congr rfl fun q _ => ?_
  rw [addend_of_lt _ _ _ _ _ _ _ (col_lt t q), xblk_apply, wblk_apply, iblk2_apply]

/-- A first stretch: the update of the zero block is the sum over the first 5504 pixels. -/
theorem first_eq (c : Dev nD) (t : Fin cfg0.N) (h0 : t.val % 6 = 0) (p : Fin 256) (r : Fin 129) :
    k0_pay2 (F := Ideal) (xblk m c t) (wblk m c t) (iblk2 m c t) (k0_pay1 (F := Ideal)) (ix2 p r)
      = partialSum (argX m c) (argI m c) (argW m c) (t.val / 6 * 256 + p.val) (row_lt t p) r.val ((t.val % 6 + 1) * 5504) := by
  refine (pay2_apply (xblk m c t) (wblk m c t) (iblk2 m c t) (k0_pay1 (F := Ideal)) p r).trans ?_
  rw [pay1_apply, zero_add, stretch_sum]
  rw [partialSum_congr _ _ _ rfl _ (row_lt t p) _ (show (t.val % 6 + 1) * 5504 = 0 + 5504 from by omega),
    partialSum_add, partialSum_zero, zero_add]
  exact Finset.sum_congr rfl fun q _ => addend_congr _ _ _ rfl _ _ _ (by omega)

/-- A later stretch: the update of the sum over the stretches before is the sum through this one. -/
theorem step_eq (c : Dev nD) (t : Fin cfg0.N) (h0 : ¬t.val % 6 = 0) (acc : Vec Ideal S256x129 .f32)
    (p : Fin 256) (r : Fin 129) (hrow : (t.val - 1) / 6 * 256 + p.val < 1024)
    (hacc : acc (ix2 p r) = partialSum (argX m c) (argI m c) (argW m c) ((t.val - 1) / 6 * 256 + p.val) hrow r.val
        (((t.val - 1) % 6 + 1) * 5504)) :
    k0_pay2 (F := Ideal) (xblk m c t) (wblk m c t) (iblk2 m c t) acc (ix2 p r)
      = partialSum (argX m c) (argI m c) (argW m c) (t.val / 6 * 256 + p.val) (row_lt t p) r.val
          ((t.val % 6 + 1) * 5504) := by
  refine (pay2_apply (xblk m c t) (wblk m c t) (iblk2 m c t) acc p r).trans ?_
  rw [hacc, stretch_sum]
  rw [partialSum_congr _ _ _ (show t.val / 6 * 256 + p.val = (t.val - 1) / 6 * 256 + p.val from by omega) (row_lt t p)
    hrow _ (show (t.val % 6 + 1) * 5504 = ((t.val - 1) % 6 + 1) * 5504 + 5504 from by omega),
    partialSum_add]
  refine congrArg (fun s => partialSum (argX m c) (argI m c) (argW m c) ((t.val - 1) / 6 * 256 + p.val) hrow r.val
    (((t.val - 1) % 6 + 1) * 5504) + s) ?_
  exact Finset.sum_congr rfl fun q _ => addend_congr _ _ _ (by omega) _ _ _ (by omega)

/-- The scratch after each point, by induction along the points. -/
theorem scratch_eq (c : Dev nD) : ∀ (k : ℕ) (t : Fin cfg0.N), t.val = k → ∀ (p : Fin 256) (r : Fin 129),
    (outsAt0 m c t.val t.isLt).2 (ix2 p r)
      = partialSum (argX m c) (argI m c) (argW m c) (t.val / 6 * 256 + p.val) (row_lt t p) r.val ((t.val % 6 + 1) * 5504) := by
  intro k
  induction k with
  | zero =>
    intro t ht p r
    have h0 : t.val % 6 = 0 := by omega
    have h1 : ¬t.val % 6 = 5 := by omega
    rw [outsAt0_A m c t h0 h1]
    dsimp only
    refine (congrFun (scratch_first c (grid0.coords t) (ms0_0 t) (hs0_0 t) (ms0_1 t) (hs0_1 t)
      (ms0_2 t) (hs0_2 t) (ms0_3 t) (hs0_3 t) (ms0_4 t) (hs0_4 t) scM0_0 (Memref.isWhole_whole _) _ _
      (iblk m c 0 t) (iblk m c 1 t) (iblk m c 2 t) (iblk m c 3 t)) (ix2 p r)).trans ?_
    exact first_eq m c t h0 p r
  | succ k ih =>
    intro t ht p r
    have hN : cfg0.N = 24 := N_0
    have hlt := t.isLt
    by_cases h0 : t.val % 6 = 0
    · have h1 : ¬t.val % 6 = 5 := by omega
      rw [outsAt0_A m c t h0 h1]
      dsimp only
      refine (congrFun (scratch_first c (grid0.coords t) (ms0_0 t) (hs0_0 t) (ms0_1 t) (hs0_1 t)
      (ms0_2 t) (hs0_2 t) (ms0_3 t) (hs0_3 t) (ms0_4 t) (hs0_4 t) scM0_0 (Memref.isWhole_whole _) _ _
      (iblk m c 0 t) (iblk m c 1 t) (iblk m c 2 t) (iblk m c 3 t)) (ix2 p r)).trans ?_
      exact first_eq m c t h0 p r
    · have hprev : t.val - 1 < cfg0.N := by omega
      have hrow : (t.val - 1) / 6 * 256 + p.val < 1024 := by have := p.isLt; omega
      have hacc := ih ⟨t.val - 1, hprev⟩ (by show t.val - 1 = k; omega) p r
      by_cases h1 : t.val % 6 = 5
      · rw [outsAt0_C m c t h0 h1]
        dsimp only
        refine (congrFun (scratch_last c (grid0.coords t) (ms0_0 t) (hs0_0 t) (ms0_1 t) (hs0_1 t)
      (ms0_2 t) (hs0_2 t) (ms0_3 t) (hs0_3 t) (ms0_4 t) (hs0_4 t) scM0_0 (Memref.isWhole_whole _) _ _
      (iblk m c 0 t) (iblk m c 1 t) (iblk m c 2 t) (iblk m c 3 t)
          (outsAt0 m c (t.val - 1) hprev).2) (ix2 p r)).trans ?_
        exact step_eq m c t h0 _ p r hrow hacc
      · rw [outsAt0_B m c t h0 h1]
        dsimp only
        refine (congrFun (scratch_middle c (grid0.coords t) (ms0_0 t) (hs0_0 t) (ms0_1 t) (hs0_1 t)
      (ms0_2 t) (hs0_2 t) (ms0_3 t) (hs0_3 t) (ms0_4 t) (hs0_4 t) scM0_0 (Memref.isWhole_whole _) _ _
      (iblk m c 0 t) (iblk m c 1 t) (iblk m c 2 t) (iblk m c 3 t)
          (outsAt0 m c (t.val - 1) hprev).2) (ix2 p r)).trans ?_
        exact step_eq m c t h0 _ p r hrow hacc

/-- The block a last-stretch point writes back: the spectrum at the tile's rows. -/
theorem block_eq (c : Dev nD) (t : Fin cfg0.N) (h5 : t.val % 6 = 5) (p : Fin 256) (r : Fin 129) :
    (outsAt0 m c t.val t.isLt).1 (ix2 p r)
      = spectrum (argX m c) (argI m c) (argW m c) (argC m c)
          (ix2 (⟨t.val / 6 * 256 + p.val, row_lt t p⟩ : Fin 1024) r) := by
  have hN : cfg0.N = 24 := N_0
  have hlt := t.isLt
  have h0 : ¬t.val % 6 = 0 := by omega
  have hprev : t.val - 1 < cfg0.N := by omega
  have hrow : (t.val - 1) / 6 * 256 + p.val < 1024 := by have := p.isLt; omega
  have hacc := scratch_eq m c (t.val - 1) ⟨t.val - 1, hprev⟩ rfl p r
  rw [outsAt0_C m c t h0 h5]
  dsimp only
  refine (congrFun (block_last c (grid0.coords t) (ms0_0 t) (hs0_0 t) (ms0_1 t) (hs0_1 t)
      (ms0_2 t) (hs0_2 t) (ms0_3 t) (hs0_3 t) (ms0_4 t) (hs0_4 t) scM0_0 (Memref.isWhole_whole _) _ _
      (iblk m c 0 t) (iblk m c 1 t) (iblk m c 2 t) (iblk m c 3 t)
    (outsAt0 m c (t.val - 1) hprev).2) (ix2 p r)).trans ?_
  refine (pay3_apply _ (cblk m c t) p r).trans ?_
  rw [step_eq m c t h0 _ p r hrow hacc, cblk_apply,
    partialSum_congr _ _ _ rfl (row_lt t p) (row_lt t p) _ (show (t.val % 6 + 1) * 5504 = 33024 from by omega)]
  rfl

end Cert.KernelIdeal.Accum

end
-- ==== Proof.KFinal.lean ====
/-
  From the written-back blocks to the result array.

  The output window's block at a last-stretch point of row tile `i` is rows `i * 256 … i * 256 + 255` of the
  rows-by-shells array, all 129 shells; the four tiles cover its 1024 rows, so after the region that array is
  the spectrum, and the operation after the region regroups its rows by image and channel.
-/
import proofs.«427259_j25864293056838_2_alg».proof.Proof.KAccum
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.ShellSum
open Cert.KernelIdeal.Blocks Cert.KernelIdeal.Accum

variable (m : (ℓ : Loc nD τ sig) → Buf (Elt Ideal) ℓ) (ρ : Dev nD → PrngReg)

/-- The rows-by-shells array: the spectrum of the four arguments. -/
abbrev rows (c : Dev nD) : FVec Ideal SRows .f32 := spectrum (argX m c) (argI m c) (argW m c) (argC m c)

/-- What a last-stretch point writes back is its block of the spectrum. -/
theorem flushed_eq (c : Dev nD) (t : Fin cfg0.N) (hf : (cfg0.win 4).flush t = true) :
    (dats m 0 c).flushed 4 t = ((cfg0.win 4).blk t).view.read (Elt Ideal) (rows m c) := by
  have h5 : t.val % 6 = 5 := (flush0_4 t).mp hf
  show (cfg0.win 4).cut (grid0.coords t) ((dats m 0 c).after 4 t) = _
  rw [after0_4]
  have key : ∀ y : S256x129.Idx,
      (outsAt0 m c t.val t.isLt).1 y = rows m c (((cfg0.win 4).blk t).view.emb y) := by
    intro y
    obtain ⟨p, r, rfl⟩ : ∃ (p : Fin 256) (r : Fin 129), y = ix2 p r := ⟨y 0, y 1, eq_ix2 y⟩
    rw [block_eq m c t h5 p r]
    refine congrArg (rows m c) ?_
    funext a
    apply Fin.ext
    match a with
    | ⟨0, _⟩ => show t.val / 6 * 256 + p.val = win0_4.index t 0 * 256 + 1 * p.val; rw [(index4 t).1]; omega
    | ⟨1, _⟩ => show r.val = win0_4.index t 1 * 129 + 1 * r.val; rw [(index4 t).2]; omega
  funext y
  rw [View.read_apply]
  exact key y

/-- Every row lies in its tile's last-stretch block. -/
theorem cover (i : S1024x129.Idx) :
    ∃ t : Fin cfg0.N, (cfg0.win 4).flush t = true ∧ i ∈ ((cfg0.win 4).blk t).view.set := by
  have hN : cfg0.N = 24 := N_0
  have hi0 : (i 0).val < 1024 := (i 0).isLt
  have hi1 : (i 1).val < 129 := (i 1).isLt
  have ht : (i 0).val / 256 * 6 + 5 < cfg0.N := by omega
  refine ⟨⟨(i 0).val / 256 * 6 + 5, ht⟩, (flush0_4 _).mpr (by show ((i 0).val / 256 * 6 + 5) % 6 = 5; omega), ?_⟩
  show i ∈ ((View.whole main_v4).slice (win0_4.rect ⟨(i 0).val / 256 * 6 + 5, ht⟩)).set
  rw [View.set_slice_whole, Rect.mem_set_unit]
  intro a
  match a with
  | ⟨0, _⟩ =>
    show win0_4.index ⟨(i 0).val / 256 * 6 + 5, ht⟩ 0 * 256 ≤ (i 0).val
      ∧ (i 0).val < win0_4.index ⟨(i 0).val / 256 * 6 + 5, ht⟩ 0 * 256 + 256
    rw [(index4 ⟨(i 0).val / 256 * 6 + 5, ht⟩).1]
    show ((i 0).val / 256 * 6 + 5) / 6 * 256 ≤ (i 0).val ∧ (i 0).val < ((i 0).val / 256 * 6 + 5) / 6 * 256 + 256
    omega
  | ⟨1, _⟩ =>
    show win0_4.index ⟨(i 0).val / 256 * 6 + 5, ht⟩ 1 * 129 ≤ (i 1).val
      ∧ (i 1).val < win0_4.index ⟨(i 0).val / 256 * 6 + 5, ht⟩ 1 * 129 + 129
    rw [(index4 ⟨(i 0).val / 256 * 6 + 5, ht⟩).2]
    omega

/-- The rows-by-shells array after the region. -/
theorem final (c : Dev nD) : (dats m 0 c).arrAt 4 cfg0.N = rows m c :=
  (dats m 0 c).arrAt_eq_of_cover 4 (rows m c) (flushed_eq m c) cover

/-- The result: the spectrum's rows regrouped by image and channel. -/
abbrev result (c : Dev nD) : Buf (Elt Ideal) ((c : Thread nD τ).loc main_v5) :=
  shapeCast S128x8x129 (rows m c) shapeCasts_S1024x129_S128x8x129

theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  exact congrArg (fun v => shapeCast S128x8x129 v shapeCasts_S1024x129_S128x8x129)
    ((Pipeline.withArrays_arr spec0 launch0.win.arr_inj c _ _ 4).trans (final m c))

/-- The run, read: the result at the regrouped spectrum, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefSpectrum.lean ====
/-
  The reference's rows-by-shells array is the spectrum of `Cert.ShellSum`.

  The reference multiplies the volume by itself and by the half-plane weight, flattens each of the 1024 rows to its 33024
  pixels, transposes, and scatter-adds the 33024 update rows into 129 shell rows of a zero array, update row `k` going to
  the shell row its index word names; it transposes back and divides by `count + eps`.

  Read at `(n, r)`: the quotient of the scatter at `(r, n)` by `count r + eps`. The scatter at `(r, n)` is zero plus the
  sum of the updates `(k, n')` that land there. Update `(k, n')` lands at `(w, n')`, `w` the index word of pixel `k` read
  signed, when `0 ≤ w < 129`, and nowhere otherwise; so it lands at `(r, n)` exactly when `n' = n` and the word is the
  word `r`. The filtered sum is then a sum over all `(k, n')` of a conditional term, the sum over `n'` keeps one term, and
  what remains is the sum over the flat pixels `k` of `x n k * x n k * w k` where pixel `k`'s word is `r`, else `0`: the
  shell sum. The flattened row index `n * 33024 + k` splits as image `n / 8`, channel `n % 8`, row `k / 129`, column
  `k % 129`. Nothing is asked of the inputs: only `0 + a = a`, sums over finite sets and conditionals are used.
-/
import proofs.«427259_j25864293056838_2_alg».proof.Proof.Gen.ReferenceIdeal.Read
import proofs.«427259_j25864293056838_2_alg».proof.Proof.ShellSum
import Idealize.ShloMosaic.Lib.ValueIdx
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx

/-- The scatter's dimension numbers: updates `[33024, 1024]` into an operand `[129, 1024]`, the update's axis 1 the
    window (onto operand axis 1), operand axis 0 addressed by the one-component start index. -/
abbrev D : ScatterDims S129x1024 S33024x1 S33024x1024 := scatter_S129x1024_S33024x1_S33024x1024_1_0_0_1

/-- Update `(k, n)` reads its start index at `(k, 0)` of the index array. -/
theorem siIdx_eq (j : S33024x1024.Idx) (c : Fin D.scatterDimsToOperandDims.length) :
    D.siIdx j c = ix2 (j 0) (⟨0, Nat.one_pos⟩ : Fin 1) := by
  funext b
  refine Fin.ext ?_
  match b with
  | ⟨0, _⟩ => rfl
  | ⟨1, _⟩ =>
    show c.val = 0
    have := c.isLt
    have hl : D.scatterDimsToOperandDims.length = 1 := rfl
    omega

/-- On operand axis 0 the window starts at the index word, read signed. -/
theorem start0 (j : S33024x1024.Idx) (idx : IVec S33024x1 32) :
    D.start j idx 0 = (idx (ix2 (j 0) (⟨0, Nat.one_pos⟩ : Fin 1))).toInt := by
  unfold ScatterDims.start
  rw [dif_pos (show (0 : Fin 2) ∈ D.scatterDimsToOperandDims from List.mem_singleton.mpr rfl)]
  rw [siIdx_eq]
  rfl

/-- Operand axis 1 is not addressed by the start index. -/
theorem start1 (j : S33024x1024.Idx) (idx : IVec S33024x1 32) :
    D.start j idx 1 = 0 := by
  unfold ScatterDims.start
  rw [dif_neg (show ¬ (1 : Fin 2) ∈ D.scatterDimsToOperandDims from by decide)]

/-- Operand axis 0 is an inserted axis: the window has no extent there. -/
theorem window0 (j : S33024x1024.Idx) : D.window j 0 = 0 := by
  unfold ScatterDims.window
  rw [dif_neg (show ¬ (0 : Fin 2) ∈ D.sKept from by decide)]

/-- On operand axis 1 the window coordinate is the update's second coordinate. -/
theorem window1 (j : S33024x1024.Idx) : D.window j 1 = (j 1).val := by
  unfold ScatterDims.window
  rw [dif_pos (show (1 : Fin 2) ∈ D.sKept from by decide)]
  rfl

/-- Where update `j = (k, n')` lands: at `i = (r, n)` exactly when the index word at `(k, 0)`, read signed, is `r` and
    `n' = n`. A word that is negative or 129 and more lands nowhere. -/
theorem resultIdx_eq_some_iff (j : S33024x1024.Idx) (idx : IVec S33024x1 32) (i : S129x1024.Idx) :
    D.resultIdx? j idx = some i ↔
      (idx (ix2 (j 0) (⟨0, Nat.one_pos⟩ : Fin 1))).toInt = ((i 0).val : ℤ) ∧ (j 1).val = (i 1).val := by
  have hi0 : (i 0).val < 129 := (i 0).isLt
  have hi1 : (i 1).val < 1024 := (i 1).isLt
  have hj1 : (j 1).val < 1024 := (j 1).isLt
  unfold ScatterDims.resultIdx?
  constructor
  · intro h
    split at h
    · rename_i H
      have h' := Option.some.inj h
      have e0 := congrArg (fun f => (f 0).val) h'
      have e1 := congrArg (fun f => (f 1).val) h'
      simp only [start0, start1, window0, window1] at e0 e1 H
      have H0 := H 0
      have H1 := H 1
      simp only [start0, start1, window0, window1] at H0 H1
      constructor <;> omega
    · exact absurd h (by simp)
  · rintro ⟨h0, h1⟩
    have H : ∀ a : Fin 2, 0 ≤ D.start j idx a + (D.window j a : ℤ) ∧ D.start j idx a + (D.window j a : ℤ) < ((S129x1024.size a : ℕ) : ℤ) := by
      intro a
      match a with
      | ⟨0, _⟩ =>
        show 0 ≤ D.start j idx 0 + (D.window j 0 : ℤ) ∧ D.start j idx 0 + (D.window j 0 : ℤ) < ((129 : ℕ) : ℤ)
        rw [start0, window0, h0]; omega
      | ⟨1, _⟩ =>
        show 0 ≤ D.start j idx 1 + (D.window j 1 : ℤ) ∧ D.start j idx 1 + (D.window j 1 : ℤ) < ((1024 : ℕ) : ℤ)
        rw [start1, window1]; omega
    rw [dif_pos H]
    congr 1
    funext a
    refine Fin.ext ?_
    match a with
    | ⟨0, _⟩ =>
      show (D.start j idx 0 + (D.window j 0 : ℤ)).toNat = (i 0).val
      rw [start0, window0, h0]; omega
    | ⟨1, _⟩ =>
      show (D.start j idx 1 + (D.window j 1 : ℤ)).toNat = (i 1).val
      rw [start1, window1]; omega

/-! ## The operands of the scatter and of the division, read at an index -/

/-- The divisor at `(n, r)`: the count of shell `r` plus the constant. -/
theorem divisor_apply (x3 : (⟨S129, .f32⟩ : BufTy).Contents (Elt Ideal)) (i : S1024x129.Idx) :
    val_main_v14 (F := Ideal) x3 i = x3 (ix1 (i 1)) + Ideal.ofBits .f32 0x3727C5AC#32 := by
  rw [val_main_v14_apply, val_main_v13_apply, val_main_v12_apply, val_main_v11_apply, val_main_cst_0_apply,
    Ideal.addf_def, Ideal.ofBits_def]
  have e : idx_main_v13 (idx_main_v14 i) = ix1 (i 1) := by
    funext a
    match a with
    | ⟨0, _⟩ => rfl
  rw [e]
  rfl

/-- The scatter's operand is zero everywhere. -/
theorem operand_apply (i : S129x1024.Idx) : val_main_v7 (F := Ideal) i = 0 := by
  rw [val_main_v7_apply, val_main_cst_apply, Ideal.ofBits_def, Ideal.ofBits_zero_f32]

/-- The index word update row `k` starts at: the shell index of flat pixel `k`. -/
theorem word_apply (x1 : (⟨S256x129, .i32⟩ : BufTy).Contents (Elt Ideal)) (k : Fin 33024) :
    val_main_v8 (F := Ideal) x1 (ix2 k (⟨0, Nat.one_pos⟩ : Fin 1)) = x1 (Cert.ShellSum.pix k.val k.isLt) := by
  rw [val_main_v8_apply, val_main_v5_apply]
  have e : idx_main_v5 (idx_main_v8 (ix2 k (⟨0, Nat.one_pos⟩ : Fin 1))) = Cert.ShellSum.pix k.val k.isLt := by
    funext a
    match a with
    | ⟨0, _⟩ => rfl
    | ⟨1, _⟩ => rfl
  rw [e]

/-- The update at `(k, n)`: the weighted power of flat row `n` at flat pixel `k`. -/
theorem update_apply (x0 : (⟨S128x8x256x129, .f32⟩ : BufTy).Contents (Elt Ideal))
    (x2 : (⟨S256x129, .f32⟩ : BufTy).Contents (Elt Ideal)) (k : Fin 33024) (n : Fin 1024) :
    val_main_v6 (F := Ideal) x0 x2 (ix2 k n)
      = x0 (Cert.ShellSum.vox n.val n.isLt k.val k.isLt) * x0 (Cert.ShellSum.vox n.val n.isLt k.val k.isLt)
          * x2 (Cert.ShellSum.pix k.val k.isLt) := by
  have hk : k.val < 33024 := k.isLt
  have hn : n.val < 1024 := n.isLt
  rw [val_main_v6_apply, val_main_v4_apply, val_main_v3_apply, val_main_v0_apply, val_main_v2_apply, val_main_v1_apply,
    Ideal.mulf_def, Ideal.mulf_def]
  have e4 : idx_main_v4 (idx_main_v6 (ix2 k n)) = Cert.ShellSum.vox n.val n.isLt k.val k.isLt := by
    funext a
    refine Fin.ext ?_
    match a with
    | ⟨0, _⟩ => show (n.val * 33024 + k.val) / 264192 = n.val / 8; omega
    | ⟨1, _⟩ => show (n.val * 33024 + k.val) / 33024 % 8 = n.val % 8; omega
    | ⟨2, _⟩ => show (n.val * 33024 + k.val) / 129 % 256 = k.val / 129; omega
    | ⟨3, _⟩ => show (n.val * 33024 + k.val) % 129 = k.val % 129; omega
  have e1 : idx_main_v1 (idx_main_v2 (idx_main_v4 (idx_main_v6 (ix2 k n)))) = Cert.ShellSum.pix k.val k.isLt := by
    funext a
    refine Fin.ext ?_
    match a with
    | ⟨0, _⟩ => show (n.val * 33024 + k.val) / 129 % 256 = k.val / 129; omega
    | ⟨1, _⟩ => show (n.val * 33024 + k.val) % 129 = k.val % 129; omega
  rw [e1, e4]

/-- What update `(k, n')` adds at `(r, n)`: nothing unless `n' = n`, and then pixel `k`'s addend to shell `r` of row `n`. -/
theorem update_term (x0 : (⟨S128x8x256x129, .f32⟩ : BufTy).Contents (Elt Ideal))
    (x1 : (⟨S256x129, .i32⟩ : BufTy).Contents (Elt Ideal)) (x2 : (⟨S256x129, .f32⟩ : BufTy).Contents (Elt Ideal))
    (n : Fin 1024) (r : Fin 129) (k : Fin 33024) (n' : Fin 1024)
    {inst : Decidable (D.resultIdx? (ix2 k n') (val_main_v8 (F := Ideal) x1) = some (ix2 r n))} :
    (if D.resultIdx? (ix2 k n') (val_main_v8 (F := Ideal) x1) = some (ix2 r n) then val_main_v6 (F := Ideal) x0 x2 (ix2 k n') else 0)
      = if n = n' then Cert.ShellSum.addend x0 x1 x2 n.val n.isLt r.val k.val else 0 := by
  have key := resultIdx_eq_some_iff (ix2 k n') (val_main_v8 (F := Ideal) x1) (ix2 r n)
  have hw := word_apply x1 k
  have ht := Cert.ShellSum.toInt_eq_iff (x1 (Cert.ShellSum.pix k.val k.isLt)) r.val r.isLt
  by_cases hn : n = n'
  · subst hn
    rw [if_pos rfl, Cert.ShellSum.addend_of_lt _ _ _ _ _ _ _ k.isLt]
    by_cases hq : x1 (Cert.ShellSum.pix k.val k.isLt) = BitVec.ofNat 32 r.val
    · rw [if_pos hq, if_pos (key.2 ⟨by rw [← ht] at hq; rw [← hw] at hq; exact hq, rfl⟩), update_apply]
    · rw [if_neg hq, if_neg (fun h => hq (ht.1 (by have := (key.1 h).1; rw [← hw]; exact this)))]
  · rw [if_neg hn, if_neg (fun h => hn (Fin.ext (key.1 h).2.symm))]

/-! ## The scatter, and the whole reference, read at an index -/

/-- The scatter read at `(r, n)`: the shell sum of row `n` at shell `r`. The zero operand drops out; the filtered sum over
    the updates is a sum over `(k, n')` of a conditional term, the `n'` sum keeps the one term `n' = n`, and what is left
    is the sum over the flat pixels of their addends. -/
theorem scatter_apply (x0 : (⟨S128x8x256x129, .f32⟩ : BufTy).Contents (Elt Ideal))
    (x1 : (⟨S256x129, .i32⟩ : BufTy).Contents (Elt Ideal)) (x2 : (⟨S256x129, .f32⟩ : BufTy).Contents (Elt Ideal))
    (r : Fin 129) (n : Fin 1024) :
    val_main_v9 (F := Ideal) x0 x1 x2 (ix2 r n) = Cert.ShellSum.shellSum x0 x1 x2 n.val n.isLt r.val := by
  unfold val_main_v9 Host.scatterAdd
  rw [Ideal.hostScatterAdd_def]
  unfold Ideal.hostScatterAdd
  rw [operand_apply, zero_add, Finset.sum_filter, sum_idx2]
  unfold Cert.ShellSum.shellSum Cert.ShellSum.partialSum
  rw [← Fin.sum_univ_eq_sum_range (fun k => Cert.ShellSum.addend x0 x1 x2 n.val n.isLt r.val k) 33024]
  refine Finset.sum_congr rfl (fun k _ => ?_)
  rw [Finset.sum_congr rfl (fun n' _ => update_term x0 x1 x2 n r k n')]
  rw [Finset.sum_ite_eq, if_pos (Finset.mem_univ _)]

/-- The reference's rows-by-shells array is the spectrum. -/
theorem ref_rows (x0 : FVec Ideal Cert.ShellSum.SVol .f32) (x1 : IVec Cert.ShellSum.SPlane 32)
    (x2 : FVec Ideal Cert.ShellSum.SPlane .f32) (x3 : FVec Ideal Cert.ShellSum.SShell .f32) :
    Cert.ReferenceIdeal.Read.val_main_v15 (F := Ideal) x0 x1 x2 x3 = Cert.ShellSum.spectrum x0 x1 x2 x3 := by
  funext i
  obtain ⟨n, r, rfl⟩ : ∃ (n : Fin 1024) (r : Fin 129), i = ix2 n r := ⟨i 0, i 1, eq_ix2 i⟩
  rw [val_main_v15_apply, Ideal.hostDivf_def, divisor_apply, val_main_v10_apply]
  have e : idx_main_v10 (ix2 n r) = ix2 r n := by
    funext a
    match a with
    | ⟨0, _⟩ => rfl
    | ⟨1, _⟩ => rfl
  rw [e, scatter_apply]
  rfl

end Cert.ReferenceIdeal.RefValue

end
-- ==== Proof.lean ====
/-
  The radial shell spectrum of a batch of half-plane Fourier volumes, computed by a tiled kernel and by a
  scatter-add reference: they are one function of the arguments over the extended reals.

  Both square the volume, weigh it by the half-plane weights, and, for each of the 1024 image-channel rows, add the
  weighted power of the 33024 pixels into 129 radial shells by the pixels' shell indices, then divide each shell by
  `count + eps` (the same single-precision constant on both sides). The kernel does the shell sums as a matrix
  product with a one-hot matrix built from the index words, six stretches of 5504 pixels accumulated in a scratch
  block per tile of 256 rows; the reference scatters the transposed rows into a zero array. A product with a
  one-hot column keeps exactly the pixels whose index word is that shell's number, which are exactly the updates
  the scatter lands on that shell (a word that names no shell matches no column and lands nowhere); the six partial
  sums re-associate into the whole sum. Zero times anything is zero on the extended reals, and addition there is
  associative and commutative, so nothing is asked of the inputs: the precondition is not used.

  The shell sum as a specification is Proof/ShellSum.lean; the kernel's side is Proof/KPieces.lean (what each
  control case stores), Proof/KPay.lean (the stored values at an element), Proof/KBlocks.lean (the input blocks as
  elements of the arguments), Proof/KAccum.lean (the accumulation over the stretches) and Proof/KFinal.lean (from the
  written-back blocks to the result array); the reference's side is Proof/RefSpectrum.lean. The three frames are
  the generated ones; the ideal pass rewrote nothing, so the preservation claim is trivial.
-/
import proofs.«427259_j25864293056838_2_alg».proof.Defs
import proofs.«427259_j25864293056838_2_alg».proof.Proof.Gen.Kernel
import proofs.«427259_j25864293056838_2_alg».proof.Proof.Gen.Kernel.Skeleton
import proofs.«427259_j25864293056838_2_alg».proof.Proof.Gen.Kernel.Launch
import proofs.«427259_j25864293056838_2_alg».proof.Proof.Gen.Kernel.Points
import proofs.«427259_j25864293056838_2_alg».proof.Proof.Gen.Kernel.Frame
import proofs.«427259_j25864293056838_2_alg».proof.Proof.Gen.KernelIdeal
import proofs.«427259_j25864293056838_2_alg».proof.Proof.Gen.KernelIdeal.Skeleton
import proofs.«427259_j25864293056838_2_alg».proof.Proof.Gen.KernelIdeal.Launch
import proofs.«427259_j25864293056838_2_alg».proof.Proof.Gen.KernelIdeal.Points
import proofs.«427259_j25864293056838_2_alg».proof.Proof.Gen.KernelIdeal.Frame
import proofs.«427259_j25864293056838_2_alg».proof.Proof.Gen.ReferenceIdeal
import proofs.«427259_j25864293056838_2_alg».proof.Proof.Gen.ReferenceIdeal.Run
import proofs.«427259_j25864293056838_2_alg».proof.Proof.Gen.ReferenceIdeal.Read
import proofs.«427259_j25864293056838_2_alg».proof.Proof.Gen.Pre_finite_inputs
import proofs.«427259_j25864293056838_2_alg».proof.Proof.KFinal
import proofs.«427259_j25864293056838_2_alg».proof.Proof.RefSpectrum
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the spectrum of the arguments, its rows regrouped by image and channel. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v16_eq _ _ _ _).trans ?_
  unfold Cert.ReferenceIdeal.Read.val_main_v16
  rw [Cert.ReferenceIdeal.RefValue.ref_rows]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
